-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S5x4096x32 : Shape := ⟨3, ![5, 4096, 32]⟩
abbrev S4096x32 : Shape := ⟨2, ![4096, 32]⟩
abbrev S8 : Shape := ⟨1, ![8]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S5x4096x32 : S_.BroadcastsInDim S5x4096x32 (![] : Fin 0 → Fin S5x4096x32.rank)
  reducesTo_S5x4096x32_S_d0_1_2 : S5x4096x32.ReducesTo [0, 1, 2] S_
  bcast_S_S4096x32 : S_.BroadcastsInDim S4096x32 (![] : Fin 0 → Fin S4096x32.rank)
  reducesTo_S4096x32_S_d0_1 : S4096x32.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S4096x32 .f32) (main_arg5 : IVec S8 32) (main_v13 : IVec S_ 1) (main_v16 : IVec S5x4096x32 1) : IVec S_ 1 :=
  let main_c_5 : IVec S_ 1 := constantI S_ 1 1#1
  let main_v17 : IVec S_ 1 := (fun x v => Host.reduce IntOp.andi x v reducesTo_S5x4096x32_S_d0_1_2 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_c_8 : IVec S_ 32 := constantI S_ 32 0#32
  let main_v24 : IVec S8 32 := broadcastInDim S8 ![] bcast_S_S8 main_c_8
  let main_v25 : IVec S8 1 := cmpi .sge main_arg5 main_v24
  let main_c_9 : IVec S_ 1 := constantI S_ 1 1#1
  let main_v26 : IVec S_ 1 := (fun x v => Host.reduce IntOp.andi x v reducesTo_S8_S_d0 h_S_) main_v25 main_c_9
  let main_v27 : IVec S_ 1 := andi main_v23 main_v26
  main_v27

def fn {F : FTy → Type} [FloatOps F] (main_arg0 : FVec F S8x2048x4096 .f32) (main_arg1 : FVec F S4096x4096 .f32) (main_arg2 : FVec F S4096 .f32) (main_arg3 : FVec F S5x4096x32 .f32) (main_arg4 : FVec F S4096x32 .f32) (main_arg5 : IVec S8 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S5x4096x32 .f32 := Host.absf main_arg3
  let main_cst_4 : FVec F S_ .f32 := constant S_ .f32 0x7F800000#32
  let main_v15 : FVec F S5x4096x32 .f32 := broadcastInDim S5x4096x32 ![] bcast_S_S5x4096x32 main_cst_4
  let main_v16 : IVec S5x4096x32 1 := cmpf .olt main_v14 main_v15
  fn_part1 (F := F) main_arg4 main_arg5 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S5x4096x32 : Shape := ⟨3, ![5, 4096, 32]⟩
abbrev S4096x32 : Shape := ⟨2, ![4096, 32]⟩
abbrev S8 : Shape := ⟨1, ![8]⟩
abbrev S_ : Shape := ⟨0, ![]⟩
abbrev S32x4096 : Shape := ⟨2, ![32, 4096]⟩
abbrev S1x4096 : Shape := ⟨2, ![1, 4096]⟩
abbrev S8x1 : Shape := ⟨2, ![8, 1]⟩
abbrev S8x4096x32 : Shape := ⟨3, ![8, 4096, 32]⟩
abbrev S8x2048x32 : Shape := ⟨3, ![8, 2048, 32]⟩
abbrev S1x256x4096 : Shape := ⟨3, ![1, 256, 4096]⟩
abbrev S4096x1024 : Shape := ⟨2, ![4096, 1024]⟩
abbrev S1x1024 : Shape := ⟨2, ![1, 1024]⟩
abbrev S1x256x32 : Shape := ⟨3, ![1, 256, 32]⟩
abbrev S32x1024 : Shape := ⟨2, ![32, 1024]⟩
abbrev S1x256x1024 : Shape := ⟨3, ![1, 256, 1024]⟩
abbrev S256x4096 : Shape := ⟨2, ![256, 4096]⟩
abbrev S256x1024 : Shape := ⟨2, ![256, 1024]⟩
abbrev S256x32 : Shape := ⟨2, ![256, 32]⟩

abbrev nBuf : Space → Nat
  | .hbm => 35
  | .vmem => 12
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S5x4096x32, .f32⟩
  | .hbm, ⟨4, _⟩ => ⟨S4096x32, .f32⟩
  | .hbm, ⟨5, _⟩ => ⟨S8, .i32⟩
  | .hbm, ⟨6, _⟩ => ⟨S4096x4096, .bf16⟩
  | .hbm, ⟨7, _⟩ => ⟨S4096x4096, .bf16⟩
  | .hbm, ⟨8, _⟩ => ⟨S_, .f32⟩
  | .hbm, ⟨9, _⟩ => ⟨S4096x32, .f32⟩
  | .hbm, ⟨10, _⟩ => ⟨S4096x32, .f32⟩
  | .hbm, ⟨11, _⟩ => ⟨S4096x32, .bf16⟩
  | .hbm, ⟨12, _⟩ => ⟨S32x4096, .bf16⟩
  | .hbm, ⟨13, _⟩ => ⟨S1x4096, .f32⟩
  | .hbm, ⟨14, _⟩ => ⟨S8x2048x4096, .bf16⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i32⟩
  | .hbm, ⟨29, _⟩ => ⟨S8, .i32⟩
  | .hbm, ⟨30, _⟩ => ⟨S8x1, .i32⟩
  | .hbm, ⟨31, _⟩ => ⟨S8x4096x32, .f32⟩
  | .hbm, ⟨32, _⟩ => ⟨S8x2048x32, .f32⟩
  | .hbm, ⟨33, _⟩ => ⟨S8x2048x32, .bf16⟩
  | .hbm, ⟨34, _⟩ => ⟨S8x2048x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x256x32, .bf16⟩
  | .local _ .vmem, ⟨7, _⟩ => ⟨S1x256x32, .bf16⟩
  | .local _ .vmem, ⟨8, _⟩ => ⟨S32x1024, .bf16⟩
  | .local _ .vmem, ⟨9, _⟩ => ⟨S32x1024, .bf16⟩
  | .local _ .vmem, ⟨10, _⟩ => ⟨S1x256x1024, .f32⟩
  | .local _ .vmem, ⟨11, _⟩ => ⟨S1x256x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x256x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  transposes_S4096x4096_S4096x4096_1_0 : S4096x4096.Transposes [1, 0] S4096x4096
  bcast_S_S4096x32 : S_.BroadcastsInDim S4096x32 (![] : Fin 0 → Fin S4096x32.rank)
  transposes_S4096x32_S32x4096_1_0 : S4096x32.Transposes [1, 0] S32x4096
  shapeCasts_S4096_S1x4096 : S4096.ShapeCasts S1x4096
  bcast_S_S8 : S_.BroadcastsInDim S8 (![] : Fin 0 → Fin S8.rank)
  bcast_S8_S8x1_0 : S8.BroadcastsInDim S8x1 (![0] : Fin 1 → Fin S8x1.rank)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  gather_S5x4096x32_S8x1_S8x4096x32_12_0_n_n_0_1_1409632_wf : GatherDims.WF S5x4096x32 S8x1 S8x4096x32 [1, 2] [0] [] [0] [] 1 ![1, 4096, 32]
  dot_S8x2048x4096_S8x4096x32_S8x2048x32_2_1_1_2_0_0_wf : DotDims.WF S8x2048x4096 S8x4096x32 S8x2048x32 [2] [1] [1] [2] [0] [0]
  dot_S256x4096_S4096x1024_S256x1024_1_0_0_1_n_n_wf : DotDims.WF S256x4096 S4096x1024 S256x1024 [1] [0] [0] [1] [] []
  dot_S256x32_S32x1024_S256x1024_1_0_0_1_n_n_wf : DotDims.WF S256x32 S32x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x2048x4096.size a
  hwx0_0 : ∀ i : grid0.Coords, EltTy.bits .bf16 = 32 ∨ (Rect.block (s := S8x2048x4096) S1x256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x32.size a ≤ S8x2048x32.size a
  hwx0_3 : ∀ i : grid0.Coords, EltTy.bits .bf16 = 32 ∨ (Rect.block (s := S8x2048x32) S1x256x32.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S32x4096.size a
  hwx0_4 : ∀ i : grid0.Coords, EltTy.bits .bf16 = 32 ∨ (Rect.block (s := S32x4096) S32x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x2048x4096.size a
  hwx0_5 : ∀ i : grid0.Coords, EltTy.bits .f32 = 32 ∨ (Rect.block (s := S8x2048x4096) S1x256x1024.size (cc0_transform_5 i) (hinb0_5 i)).WholeWords (EltTy.packing .f32)

variable [Facts₀]

def gather_S5x4096x32_S8x1_S8x4096x32_12_0_n_n_0_1_1409632 : GatherDims S5x4096x32 S8x1 S8x4096x32 where
  offsetDims := [1, 2]
  collapsedSliceDims := [0]
  operandBatchingDims := []
  startIndicesBatchingDims := []
  startIndexMap := [0]
  indexVectorDim := 1
  sliceSizes := ![1, 4096, 32]
  wf := gather_S5x4096x32_S8x1_S8x4096x32_12_0_n_n_0_1_1409632_wf
def dot_S8x2048x4096_S8x4096x32_S8x2048x32_2_1_1_2_0_0 : DotDims S8x2048x4096 S8x4096x32 S8x2048x32 where
  lhsContracting := [2]
  rhsContracting := [1]
  lhsNonContracting := [1]
  rhsNonContracting := [2]
  lhsBatch := [0]
  rhsBatch := [0]
  wf := dot_S8x2048x4096_S8x4096x32_S8x2048x32_2_1_1_2_0_0_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf

abbrev win0_0 : Pipeline.Window sig grid0 :=
  Pipeline.Window.ofSpec (Memref.whole main_v7) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S5x4096x32 : Shape := ⟨3, ![5, 4096, 32]⟩
abbrev S4096x32 : Shape := ⟨2, ![4096, 32]⟩
abbrev S8 : Shape := ⟨1, ![8]⟩
abbrev S1x1x4096 : Shape := ⟨3, ![1, 1, 4096]⟩
abbrev S_ : Shape := ⟨0, ![]⟩
abbrev S8x1 : Shape := ⟨2, ![8, 1]⟩
abbrev S8x4096x32 : Shape := ⟨3, ![8, 4096, 32]⟩
abbrev S8x2048x32 : Shape := ⟨3, ![8, 2048, 32]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S5x4096x32, .f32⟩
  | .hbm, ⟨4, _⟩ => ⟨S4096x32, .f32⟩
  | .hbm, ⟨5, _⟩ => ⟨S8, .i32⟩
  | .hbm, ⟨6, _⟩ => ⟨S8x2048x4096, .f32⟩
  | .hbm, ⟨7, _⟩ => ⟨S1x1x4096, .f32⟩
  | .hbm, ⟨8, _⟩ => ⟨S8x2048x4096, .f32⟩
  | .hbm, ⟨9, _⟩ => ⟨S8x2048x4096, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x4096x32, .f32⟩
  | .hbm, ⟨19, _⟩ => ⟨S8x2048x32, .f32⟩
  | .hbm, ⟨20, _⟩ => ⟨S8x2048x4096, .f32⟩
  | .hbm, ⟨21, _⟩ => ⟨S_, .f32⟩
  | .hbm, ⟨22, _⟩ => ⟨S8x2048x4096, .f32⟩
  | .hbm, ⟨23, _⟩ => ⟨S8x2048x4096, .f32⟩
  | .hbm, ⟨24, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8 : S_.BroadcastsInDim S8 (![] : Fin 0 → Fin S8.rank)
  bcast_S8_S8x1_0 : S8.BroadcastsInDim S8x1 (![0] : Fin 1 → Fin S8x1.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []
  gather_S5x4096x32_S8x1_S8x4096x32_12_0_n_n_0_1_1409632_wf : GatherDims.WF S5x4096x32 S8x1 S8x4096x32 [1, 2] [0] [] [0] [] 1 ![1, 4096, 32]
  dot_S8x2048x4096_S8x4096x32_S8x2048x32_2_1_1_2_0_0_wf : DotDims.WF S8x2048x4096 S8x4096x32 S8x2048x32 [2] [1] [1] [2] [0] [0]
  dot_S8x2048x32_S4096x32_S8x2048x4096_2_1_01_0_n_n_wf : DotDims.WF S8x2048x32 S4096x32 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def gather_S5x4096x32_S8x1_S8x4096x32_12_0_n_n_0_1_1409632 : GatherDims S5x4096x32 S8x1 S8x4096x32 where
  offsetDims := [1, 2]
  collapsedSliceDims := [0]
  operandBatchingDims := []
  startIndicesBatchingDims := []
  startIndexMap := [0]
  indexVectorDim := 1
  sliceSizes := ![1, 4096, 32]
  wf := gather_S5x4096x32_S8x1_S8x4096x32_12_0_n_n_0_1_1409632_wf
def dot_S8x2048x4096_S8x4096x32_S8x2048x32_2_1_1_2_0_0 : DotDims S8x2048x4096 S8x4096x32 S8x2048x32 where
  lhsContracting := [2]
  rhsContracting := [1]
  lhsNonContracting := [1]
  rhsNonContracting := [2]
  lhsBatch := [0]
  rhsBatch := [0]
  wf := dot_S8x2048x4096_S8x4096x32_S8x2048x32_2_1_1_2_0_0_wf
def dot_S8x2048x32_S4096x32_S8x2048x4096_2_1_01_0_n_n : DotDims S8x2048x32 S4096x32 S8x2048x4096 where
  lhsContracting := [2]
  rhsContracting := [1]
  lhsNonContracting := [0, 1]
  rhsNonContracting := [0]
  lhsBatch := []
  rhsBatch := []
  wf := dot_S8x2048x32_S4096x32_S8x2048x4096_2_1_01_0_n_n_wf

class Facts : Prop extends Facts₀ where

variable [Facts]
-- ==== Proof.Spec.lean ====
/-
  A linear layer with a low-rank correction, as one function of its arrays.

  For x : [8, 2048, 4096], W : [4096, 4096], bias : [4096], a low-rank projection ax : [8, 2048, 32] of x and
  B : [4096, 32], the layer's value at (b, s, o) is

      (Σ_k x[b, s, k] · W[o, k] + bias[o]) + (Σ_r ax[b, s, r] · B[o, r]) · ½ .

  This module states that function over the extended reals, the one algebraic law the two programs differ by
  (scaling every B[o, r] by ½ before the sum is scaling the sum by ½: ½ is nonnegative and finite, so the product
  with it distributes over every sum of extended reals, infinite terms included), and two facts about the gather of
  the per-batch projection matrices: a gather depends on its start indices only through their clamped values, and
  for a nonnegative 32-bit index v, clamping v into [0, 4] first and then normalising a negative index by adding 5
  gives the same clamped start as normalising v itself.
-/
import Mathlib.Data.EReal.Operations
import Idealize.ShloMosaic.PureOps.Ideal
import Idealize.ShloMosaic.PureOps.Ideal.Laws
import Idealize.ShloMosaic.PureOps.ShapeOps
import Idealize.ShloMosaic.Lib.ValueIdx
import Idealize.ShloMosaic.Lib.Affine

noncomputable section

open scoped BigOperators

namespace Cert.LoraLinear

open Idealize.ShloMosaic Idealize.ShloMosaic.ValueIdx

/-! ## The scale ½ -/

/-- The f32 word 0x3F000000 denotes the real number one half. -/
theorem ofBits_half : Ideal.ofBits .f32 0x3F000000#32 = ((1 / 2 : ℝ) : EReal) := by
  simp [Ideal.ofBits, Ideal.ieee, -EReal.coe_mul]; norm_num

/-- The scale, kept as the word both programs spell. -/
abbrev half : EReal := Ideal.ofBits .f32 0x3F000000#32

theorem half_nonneg : (0 : EReal) ≤ half := by
  show (0 : EReal) ≤ Ideal.ofBits .f32 0x3F000000#32
  rw [ofBits_half]
  exact_mod_cast (by norm_num : (0 : ℝ) ≤ 1 / 2)

theorem half_ne_top : half ≠ ⊤ := by
  show Ideal.ofBits .f32 0x3F000000#32 ≠ ⊤
  rw [ofBits_half]
  exact EReal.coe_ne_top _

/-- Scaling every second factor by a nonnegative finite h scales the sum of products by h: the product with such an
    h distributes over any sum of extended reals. -/
theorem sum_mul_scaled {ι : Type} (s : Finset ι) (a b : ι → EReal) (h : EReal) (h0 : 0 ≤ h) (ht : h ≠ ⊤) :
    ∑ r ∈ s, a r * (b r * h) = (∑ r ∈ s, a r * b r) * h := by
  classical
  induction s using Finset.induction_on with
  | empty => simp
  | insert x s hx ih =>
    rw [Finset.sum_insert hx, Finset.sum_insert hx, ih, EReal.right_distrib_of_nonneg_of_ne_top h0 ht, mul_assoc]

/-! ## The layer -/

/-- The layer's value at batch b, row s, output feature o. -/
def entry (X : (⟨3, ![8, 2048, 4096]⟩ : Shape).Idx → EReal) (W : (⟨2, ![4096, 4096]⟩ : Shape).Idx → EReal)
    (bias : (⟨1, ![4096]⟩ : Shape).Idx → EReal) (ax : (⟨3, ![8, 2048, 32]⟩ : Shape).Idx → EReal)
    (Bm : (⟨2, ![4096, 32]⟩ : Shape).Idx → EReal) (b : Fin 8) (s : Fin 2048) (o : Fin 4096) : EReal :=
  ((∑ k : Fin 4096, X (ix3 b s k) * W (ix2 o k)) + bias (ix1 o))
    + (∑ r : Fin 32, ax (ix3 b s r) * Bm (ix2 o r)) * half

/-- The layer's whole output array. -/
def out (X : (⟨3, ![8, 2048, 4096]⟩ : Shape).Idx → EReal) (W : (⟨2, ![4096, 4096]⟩ : Shape).Idx → EReal)
    (bias : (⟨1, ![4096]⟩ : Shape).Idx → EReal) (ax : (⟨3, ![8, 2048, 32]⟩ : Shape).Idx → EReal)
    (Bm : (⟨2, ![4096, 32]⟩ : Shape).Idx → EReal) : (⟨3, ![8, 2048, 4096]⟩ : Shape).Idx → EReal :=
  fun j => entry X W bias ax Bm (j 0) (j 1) (j 2)

/-- The same value with the scale folded into B beforehand. -/
theorem entry_scaled (X : (⟨3, ![8, 2048, 4096]⟩ : Shape).Idx → EReal) (W : (⟨2, ![4096, 4096]⟩ : Shape).Idx → EReal)
    (bias : (⟨1, ![4096]⟩ : Shape).Idx → EReal) (ax : (⟨3, ![8, 2048, 32]⟩ : Shape).Idx → EReal)
    (Bm : (⟨2, ![4096, 32]⟩ : Shape).Idx → EReal) (b : Fin 8) (s : Fin 2048) (o : Fin 4096) :
    ((∑ k : Fin 4096, X (ix3 b s k) * W (ix2 o k)) + bias (ix1 o))
      + (∑ r : Fin 32, ax (ix3 b s r) * (Bm (ix2 o r) * half)) = entry X W bias ax Bm b s o := by
  unfold entry
  rw [sum_mul_scaled Finset.univ _ _ half half_nonneg half_ne_top]

/-! ## The gather of the per-batch matrices -/

/-- A gather reads its start indices only through their clamped values: two arrays of start indices whose entries
    clamp alike on every operand axis gather the same array. -/
theorem gather_congr {s si t : Shape} {α : Type} {w : Nat} (d : GatherDims s si t) (x : s.Idx → α) (i₁ i₂ : IVec si w)
    (h : ∀ (k : si.Idx) (a : Fin s.rank),
      min (i₁ k).toInt.toNat (s.size a - d.sliceSizes a) = min (i₂ k).toInt.toNat (s.size a - d.sliceSizes a)) :
    Host.gather d x i₁ = Host.gather d x i₂ := by
  funext j
  unfold Host.gather
  congr 1
  funext a
  apply Fin.ext
  show d.start j i₁ a + d.batchCoord j a + d.offCoord j a = d.start j i₂ a + d.batchCoord j a + d.offCoord j a
  congr 2
  unfold GatherDims.start
  split
  · exact h _ a
  · rfl

/-- Normalising a nonnegative index (adding 5 if it is negative) leaves it as it is. -/
theorem normalise_nonneg (u : BitVec 32) (hu : 0 ≤ u.toInt) :
    Scalar.select (IntOp.cmpi .slt u 0#32) (IntOp.addi u 5#32) u = u := by
  unfold Scalar.select
  rw [if_neg]
  intro h
  have h' := IntOp.cmpi_slt.1 h
  have hz : (0#32 : BitVec 32).toInt = 0 := by decide
  omega

/-- For a nonnegative index v: clamping v into [0, 4] and then normalising gives the same start, clamped to at most 4,
    as normalising v itself. -/
theorem lane_start_eq (v : BitVec 32) (hv : IntOp.cmpi .sge v 0#32 = 1#1) :
    min (Scalar.select (IntOp.cmpi .slt (IntOp.minsi 4#32 (IntOp.maxsi 0#32 v)) 0#32)
        (IntOp.addi (IntOp.minsi 4#32 (IntOp.maxsi 0#32 v)) 5#32) (IntOp.minsi 4#32 (IntOp.maxsi 0#32 v))).toInt.toNat 4
      = min (Scalar.select (IntOp.cmpi .slt v 0#32) (IntOp.addi v 5#32) v).toInt.toNat 4 := by
  have hz : (0#32 : BitVec 32).toInt = 0 := by decide
  have h4 : (4#32 : BitVec 32).toInt = 4 := by decide
  have h0 : 0 ≤ v.toInt := by have := IntOp.cmpi_sge.1 hv; omega
  have hmax : IntOp.maxsi 0#32 v = v := by
    unfold IntOp.maxsi
    rw [if_neg]
    intro h
    have := BitVec.slt_iff_toInt_lt.1 h
    omega
  rw [hmax, normalise_nonneg v h0]
  unfold IntOp.minsi
  by_cases hlt : (4#32 : BitVec 32).slt v = true
  · rw [if_pos hlt, normalise_nonneg _ (by omega)]
    have := BitVec.slt_iff_toInt_lt.1 hlt
    omega
  · rw [if_neg hlt, normalise_nonneg v h0]

end Cert.LoraLinear

end
-- ==== Proof.HostArrays.lean ====
/-
  What the kernel's windows find in their arrays when the region is entered.

  Before the region the program transposes the weight (so that rows are input features), folds the scale ½ into
  the low-rank matrix B and transposes it, lays the bias out as one row, and narrows the input; every narrowing is
  the identity on extended reals. Read at an index:

      input'[b, s, k] = input[b, s, k]        weight'[k, o] = weight[o, k]
      bias'[0, o]     = bias[o]               B'[r, o]      = B[o, r] · ½ .
-/
import proofs.«403444_j63677185131155_3_alg».proof.Proof.Gen.KernelIdeal.Frame
import proofs.«403444_j63677185131155_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The argument arrays as launched, on core c. -/
abbrev input (c : Dev nD) : FVec Ideal S8x2048x4096 .f32 := m ((c : Thread nD τ).loc main_arg0)
abbrev weight (c : Dev nD) : FVec Ideal S4096x4096 .f32 := m ((c : Thread nD τ).loc main_arg1)
abbrev bias (c : Dev nD) : FVec Ideal S4096 .f32 := m ((c : Thread nD τ).loc main_arg2)
abbrev loraA (c : Dev nD) : FVec Ideal S5x4096x32 .f32 := m ((c : Thread nD τ).loc main_arg3)
abbrev loraB (c : Dev nD) : FVec Ideal S4096x32 .f32 := m ((c : Thread nD τ).loc main_arg4)
abbrev labeler (c : Dev nD) : IVec S8 32 := m ((c : Thread nD τ).loc main_arg5)

/-- The narrowed input is the input. -/
theorem input_entry (c : Dev nD) : @Eq (S8x2048x4096.Idx → EReal) (V m c main_v7) (input m c) := by
  dsimp only [V]
  simp only [hostOps0, hostOps0_1, hostOps0_2, List.flatten_cons, List.flatten_nil, List.append_nil, List.cons_append, List.nil_append]
  after_results <;> rfl

/-- The transposed weight at (k, o) is the weight at (o, k). -/
theorem weight_entry (c : Dev nD) (k : Fin 4096) (o : Fin 4096) :
    (V m c main_v1 : S4096x4096.Idx → EReal) (ix2 k o) = weight m c (ix2 o k) := by
  have e : @Eq (S4096x4096.Idx → EReal) (V m c main_v1)
      (transpose S4096x4096 [1, 0] (truncf (F := Ideal) .bf16 (weight m c) bitsLt_bf16_f32) transposes_S4096x4096_S4096x4096_1_0) := by
    dsimp only [V]
    simp only [hostOps0, hostOps0_1, hostOps0_2, List.flatten_cons, List.flatten_nil, List.append_nil, List.cons_append, List.nil_append]
    after_results <;> rfl
  rw [e, transpose_ix2_apply]
  rfl

/-- The bias laid out as one row, at (u, o), is the bias at o. -/
theorem bias_entry (c : Dev nD) (u : Fin 1) (o : Fin 4096) :
    (V m c main_v6 : S1x4096.Idx → EReal) (ix2 u o) = bias m c (ix1 o) := by
  have e : @Eq (S1x4096.Idx → EReal) (V m c main_v6) (shapeCast S1x4096 (bias m c) shapeCasts_S4096_S1x4096) := by
    dsimp only [V]
    simp only [hostOps0, hostOps0_1, hostOps0_2, List.flatten_cons, List.flatten_nil, List.append_nil, List.cons_append, List.nil_append]
    after_results <;> rfl
  rw [e, shapeCast_a_1a_apply]

/-- The scaled, transposed low-rank matrix at (r, o) is B at (o, r) times ½. -/
theorem loraB_entry (c : Dev nD) (r : Fin 32) (o : Fin 4096) :
    (V m c main_v5 : S32x4096.Idx → EReal) (ix2 r o) = loraB m c (ix2 o r) * Cert.LoraLinear.half := by
  have e : @Eq (S32x4096.Idx → EReal) (V m c main_v5)
      (transpose S32x4096 [1, 0] (truncf (F := Ideal) .bf16 (mulf (F := Ideal) (φ := .f32) (loraB m c)
          (broadcastInDim S4096x32 ![] bcast_S_S4096x32 (constant (F := Ideal) S_ .f32 0x3F000000#32))) bitsLt_bf16_f32) transposes_S4096x32_S32x4096_1_0) := by
    dsimp only [V]
    simp only [hostOps0, hostOps0_1, hostOps0_2, List.flatten_cons, List.flatten_nil, List.append_nil, List.cons_append, List.nil_append]
    after_results <;> rfl
  rw [e, transpose_ix2_apply]
  show loraB m c (ix2 o r) * (broadcastInDim S4096x32 ![] bcast_S_S4096x32 (constant (F := Ideal) S_ .f32 0x3F000000#32)) (ix2 o r) = _
  rw [broadcastInDim_apply _ bcast_S_S4096x32 _ (ix2 o r) ix0 (fun a => a.elim0)]
  rfl

/-! ## The low-rank projection of the input -/

/-- The labeler indices clamped into [0, 4]. -/
abbrev clipped (c : Dev nD) : IVec S8 32 :=
  minsi (broadcastInDim S8 ![] bcast_S_S8 (constantI S_ 32 4#32))
    (maxsi (broadcastInDim S8 ![] bcast_S_S8 (constantI S_ 32 0#32)) (labeler m c))

/-- The gather's start indices: the clamped indices, a negative one moved up by 5, as a column. -/
abbrev starts (c : Dev nD) : IVec S8x1 32 :=
  broadcastInDim S8x1 ![0] bcast_S8_S8x1_0
    (select (cmpi .slt (clipped m c) (broadcastInDim S8 ![] bcast_S_S8 (constantI S_ 32 0#32)))
      (addi (clipped m c) (broadcastInDim S8 ![] bcast_S_S8 (constantI S_ 32 5#32))) (clipped m c))

/-- The projection the kernel is given: each batch's input rows times that batch's gathered matrix. -/
abbrev projection (c : Dev nD) : FVec Ideal S8x2048x32 .f32 :=
  Host.dotGeneral (F := Ideal) dot_S8x2048x4096_S8x4096x32_S8x2048x32_2_1_1_2_0_0 none (input m c)
    (Host.gather gather_S5x4096x32_S8x1_S8x4096x32_12_0_n_n_0_1_1409632 (loraA m c) (starts m c))

set_option maxHeartbeats 4000000 in
/-- The narrowed projection the region finds is that projection. -/
theorem projection_entry (c : Dev nD) : @Eq (S8x2048x32.Idx → EReal) (V m c main_v17) (projection m c) := by
  dsimp only [V]
  simp only [hostOps0, hostOps0_1, hostOps0_2, List.flatten_cons, List.flatten_nil, List.append_nil, List.cons_append, List.nil_append]
  after_results <;> rfl

end Cert.KernelIdeal.HostArrays

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Payload.lean ====
/-
  The block the kernel body writes, read at one index.

  At a grid point the body holds an input block x : [1, 256, 4096], a weight block w : [4096, 1024] (already
  transposed: rows are input features), a bias row β : [1, 1024], a projection block a : [1, 256, 32] and a
  low-rank block l : [32, 1024]. It stores, at (0, p, q),

      (Σ_k x[0, p, k] · w[k, q] + β[0, q]) + Σ_r a[0, p, r] · l[r, q] :

  each block product accumulates into a zero block, so it is the bare sum; the unit leading axis is dropped before
  the products and put back after them; the bias row is broadcast down the 256 rows.
-/
import proofs.«403444_j63677185131155_3_alg».proof.Proof.Gen.KernelIdeal.Skeleton
import proofs.«403444_j63677185131155_3_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The stored block at (u, p, q): the base product's row-by-column sum plus the bias, plus the low-rank product's
    row-by-column sum. -/
theorem pay_apply (x : FVec Ideal S1x256x4096 .bf16) (w : FVec Ideal S4096x1024 .bf16) (β : FVec Ideal S1x1024 .f32)
    (a : FVec Ideal S1x256x32 .bf16) (l : FVec Ideal S32x1024 .bf16) (u : Fin 1) (p : Fin 256) (q : Fin 1024) :
    k0_pay1 (F := Ideal) x w β a l (ix3 u p q)
      = ((∑ k : Fin 4096, x (ix3 (0 : Fin 1) p k) * w (ix2 k q)) + β (ix2 (0 : Fin 1) q))
        + ∑ r : Fin 32, a (ix3 (0 : Fin 1) p r) * l (ix2 r q) := by
  unfold k0_pay1
  rw [shapeCast_ab_1ab_apply, addf_apply, addf_apply]
  simp only [matmul]
  rw [Cert.LibDot.matmul_rows_apply _ rfl rfl rfl rfl rfl rfl, Cert.LibDot.matmul_rows_apply _ rfl rfl rfl rfl rfl rfl,
    broadcastTo_1b_ab_apply]
  simp only [shapeCast_1ab_ab_apply, shapeCast_self, constant_apply, Ideal.ofBits_zero_f32, zero_add]

end Cert.KernelIdeal.Payload

end
-- ==== Proof.KernelLayer.lean ====
/-
  The kernel's output array is the layer.

  The grid has 4 × 8 × 8 points (n, b, s). Point (n, b, s) writes the output block (b, s, n): batch b, rows
  256·s … 256·s + 255, output features 1024·n … 1024·n + 1023. It reads the input block (b, s, ·) (all 4096
  features of those rows), the transposed-weight block (·, n) and the bias and low-rank blocks (·, n) (those 1024
  output features), and the projection block (b, s, ·). So the entry it writes at (0, p, q) is the layer's value at
  (b, 256·s + p, 1024·n + q), with the scale ½ already folded into the low-rank block; the 256 blocks tile the
  output array, hence after the run the whole array is the layer's output.
-/
import proofs.«403444_j63677185131155_3_alg».proof.Proof.Gen.KernelIdeal.Value
import proofs.«403444_j63677185131155_3_alg».proof.Proof.HostArrays
import proofs.«403444_j63677185131155_3_alg».proof.Proof.Payload
import proofs.«403444_j63677185131155_3_alg».proof.Proof.Spec
import Idealize.ShloMosaic.Lib.Pipeline.Value
import Idealize.ShloMosaic.Lib.ValueIdx

set_option maxRecDepth 16384

noncomputable section

open scoped BigOperators

namespace Cert.KernelIdeal.Layer

open Cert.KernelIdeal Cert.KernelIdeal.Gen Cert.KernelIdeal.HostArrays
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's output of the launched arrays, with the projection the program computes before the region. -/
abbrev result (c : Dev nD) : S8x2048x4096.Idx → EReal :=
  Cert.LoraLinear.out (input m c) (weight m c) (bias m c) (projection m c) (loraB m c)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The index maps over the grid -/

/-- Every input window's block index in terms of the output window's (b, s, n): the input and the projection move
    with (b, s), the weight, bias and low-rank blocks with n; and the ranges of b, s, n. -/
theorem index_maps : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = win0_5.index t (2 : Fin 3)
    ∧ win0_2.index t (0 : Fin 2) = 0 ∧ win0_2.index t (1 : Fin 2) = win0_5.index t (2 : Fin 3)
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 2) = 0 ∧ win0_4.index t (1 : Fin 2) = win0_5.index t (2 : Fin 3)
    ∧ win0_5.index t (0 : Fin 3) < 8 ∧ win0_5.index t (1 : Fin 3) < 8 ∧ win0_5.index t (2 : Fin 3) < 4 :=
  (by decide +kernel : ∀ t : Fin grid0.N, _)

/-- Every output block (b, s, n) is some point's. -/
theorem index_onto : ∀ (q0 : Fin 8) (q1 : Fin 8) (q2 : Fin 4), ∃ t : Fin cfg0.N, win0_5.index t = ![q0.val, q1.val, q2.val] :=
  (by decide +kernel : ∀ (q0 : Fin 8) (q1 : Fin 8) (q2 : Fin 4), ∃ t : Fin grid0.N, win0_5.index t = ![q0.val, q1.val, q2.val])

/-! ## The input blocks as pieces of their arrays -/

/-- The input block at (u, p, k) is the input at (b, 256·s + p, k). -/
theorem input_block (c : Dev nD) (t : Fin cfg0.N) (u : Fin 1) (p : Fin 256) (k : Fin 4096) (b : Fin 8) (s : Fin 2048)
    (hb : b.val = win0_5.index t (0 : Fin 3) * 1 + 1 * u.val) (hs : s.val = win0_5.index t (1 : Fin 3) * 256 + 1 * p.val) :
    (iblk m c 0 t : FVec Ideal S1x256x4096 .bf16) (ix3 u p k) = input m c (ix3 b s k) := by
  obtain ⟨e0, e1, e2, -⟩ := index_maps t
  unfold iblk
  rw [View.read_apply]
  show (V m c main_v7 : S8x2048x4096.Idx → EReal) _ = _
  refine (congrFun (input_entry m c) _).trans ?_
  congr 1
  funext a
  apply Fin.ext
  match a with
  | ⟨0, _⟩ => show win0_0.index t (0 : Fin 3) * 1 + 1 * u.val = b.val; omega
  | ⟨1, _⟩ => show win0_0.index t (1 : Fin 3) * 256 + 1 * p.val = s.val; omega
  | ⟨2, _⟩ => show win0_0.index t (2 : Fin 3) * 4096 + 1 * k.val = k.val; omega

/-- The transposed-weight block at (k, q) is the weight at (1024·n + q, k). -/
theorem weight_block (c : Dev nD) (t : Fin cfg0.N) (k : Fin 4096) (q : Fin 1024) (o : Fin 4096)
    (ho : o.val = win0_5.index t (2 : Fin 3) * 1024 + 1 * q.val) :
    (iblk m c 1 t : FVec Ideal S4096x1024 .bf16) (ix2 k q) = weight m c (ix2 o k) := by
  obtain ⟨-, -, -, e0, e1, -⟩ := index_maps t
  unfold iblk
  rw [View.read_apply]
  show (V m c main_v1 : S4096x4096.Idx → EReal) _ = _
  refine Eq.trans ?_ (weight_entry m c k o)
  congr 1
  funext a
  apply Fin.ext
  match a with
  | ⟨0, _⟩ => show win0_1.index t (0 : Fin 2) * 4096 + 1 * k.val = k.val; omega
  | ⟨1, _⟩ => show win0_1.index t (1 : Fin 2) * 1024 + 1 * q.val = o.val; omega

/-- The bias block at (u, q) is the bias at 1024·n + q. -/
theorem bias_block (c : Dev nD) (t : Fin cfg0.N) (u : Fin 1) (q : Fin 1024) (o : Fin 4096)
    (ho : o.val = win0_5.index t (2 : Fin 3) * 1024 + 1 * q.val) :
    (iblk m c 2 t : FVec Ideal S1x1024 .f32) (ix2 u q) = bias m c (ix1 o) := by
  obtain ⟨-, -, -, -, -, e0, e1, -⟩ := index_maps t
  unfold iblk
  rw [View.read_apply]
  show (V m c main_v6 : S1x4096.Idx → EReal) _ = _
  refine Eq.trans ?_ (bias_entry m c u o)
  congr 1
  funext a
  apply Fin.ext
  match a with
  | ⟨0, _⟩ => show win0_2.index t (0 : Fin 2) * 1 + 1 * u.val = u.val; omega
  | ⟨1, _⟩ => show win0_2.index t (1 : Fin 2) * 1024 + 1 * q.val = o.val; omega

/-- The projection block at (u, p, r) is the projection at (b, 256·s + p, r). -/
theorem projection_block (c : Dev nD) (t : Fin cfg0.N) (u : Fin 1) (p : Fin 256) (r : Fin 32) (b : Fin 8) (s : Fin 2048)
    (hb : b.val = win0_5.index t (0 : Fin 3) * 1 + 1 * u.val) (hs : s.val = win0_5.index t (1 : Fin 3) * 256 + 1 * p.val) :
    (iblk m c 3 t : FVec Ideal S1x256x32 .bf16) (ix3 u p r) = projection m c (ix3 b s r) := by
  obtain ⟨-, -, -, -, -, -, -, e0, e1, e2, -⟩ := index_maps t
  unfold iblk
  rw [View.read_apply]
  show (V m c main_v17 : S8x2048x32.Idx → EReal) _ = _
  refine (congrFun (projection_entry m c) _).trans ?_
  congr 1
  funext a
  apply Fin.ext
  match a with
  | ⟨0, _⟩ => show win0_3.index t (0 : Fin 3) * 1 + 1 * u.val = b.val; omega
  | ⟨1, _⟩ => show win0_3.index t (1 : Fin 3) * 256 + 1 * p.val = s.val; omega
  | ⟨2, _⟩ => show win0_3.index t (2 : Fin 3) * 32 + 1 * r.val = r.val; omega

/-- The low-rank block at (r, q) is B at (1024·n + q, r) times ½. -/
theorem loraB_block (c : Dev nD) (t : Fin cfg0.N) (r : Fin 32) (q : Fin 1024) (o : Fin 4096)
    (ho : o.val = win0_5.index t (2 : Fin 3) * 1024 + 1 * q.val) :
    (iblk m c 4 t : FVec Ideal S32x1024 .bf16) (ix2 r q) = loraB m c (ix2 o r) * Cert.LoraLinear.half := by
  obtain ⟨-, -, -, -, -, -, -, -, -, -, e0, e1, -⟩ := index_maps t
  unfold iblk
  rw [View.read_apply]
  show (V m c main_v5 : S32x4096.Idx → EReal) _ = _
  refine Eq.trans ?_ (loraB_entry m c r o)
  congr 1
  funext a
  apply Fin.ext
  match a with
  | ⟨0, _⟩ => show win0_4.index t (0 : Fin 2) * 32 + 1 * r.val = r.val; omega
  | ⟨1, _⟩ => show win0_4.index t (1 : Fin 2) * 1024 + 1 * q.val = o.val; omega

/-! ## What a point writes -/

/-- The five input blocks at a point, each at its literal shape and format. -/
abbrev xblk (c : Dev nD) (t : Fin cfg0.N) : FVec Ideal S1x256x4096 .bf16 := iblk m c 0 t
abbrev wblk (c : Dev nD) (t : Fin cfg0.N) : FVec Ideal S4096x1024 .bf16 := iblk m c 1 t
abbrev βblk (c : Dev nD) (t : Fin cfg0.N) : FVec Ideal S1x1024 .f32 := iblk m c 2 t
abbrev ablk (c : Dev nD) (t : Fin cfg0.N) : FVec Ideal S1x256x32 .bf16 := iblk m c 3 t
abbrev lblk (c : Dev nD) (t : Fin cfg0.N) : FVec Ideal S32x1024 .bf16 := iblk m c 4 t

/-- The entry a point stores at (u, p, q) is the layer's value at (b, 256·s + p, 1024·n + q). -/
theorem block_entry (c : Dev nD) (t : Fin cfg0.N) (u : Fin 1) (p : Fin 256) (q : Fin 1024)
    (b : Fin 8) (s : Fin 2048) (o : Fin 4096)
    (hb : b.val = win0_5.index t (0 : Fin 3) * 1 + 1 * u.val) (hs : s.val = win0_5.index t (1 : Fin 3) * 256 + 1 * p.val)
    (ho : o.val = win0_5.index t (2 : Fin 3) * 1024 + 1 * q.val) :
    k0_pay1 (F := Ideal) (iblk m c 0 t) (iblk m c 1 t) (iblk m c 2 t) (iblk m c 3 t) (iblk m c 4 t) (ix3 u p q)
      = Cert.LoraLinear.entry (input m c) (weight m c) (bias m c) (projection m c) (loraB m c) b s o := by
  have hu : u.val = 0 := by omega
  have hb0 : b.val = win0_5.index t (0 : Fin 3) * 1 + 1 * (0 : Fin 1).val := by rw [hb, hu]; rfl
  have hbase : (∑ k : Fin 4096, xblk m c t (ix3 (0 : Fin 1) p k) * wblk m c t (ix2 k q))
      = ∑ k : Fin 4096, input m c (ix3 b s k) * weight m c (ix2 o k) :=
    Finset.sum_congr rfl fun k _ =>
      congrArg₂ (· * ·) (input_block m c t 0 p k b s hb0 hs) (weight_block m c t k q o ho)
  have hbias : βblk m c t (ix2 (0 : Fin 1) q) = bias m c (ix1 o) :=
    bias_block m c t 0 q o ho
  have hlow : (∑ r : Fin 32, ablk m c t (ix3 (0 : Fin 1) p r) * lblk m c t (ix2 r q))
      = ∑ r : Fin 32, projection m c (ix3 b s r) * (loraB m c (ix2 o r) * Cert.LoraLinear.half) :=
    Finset.sum_congr rfl fun r _ =>
      congrArg₂ (· * ·) (projection_block m c t 0 p r b s hb0 hs) (loraB_block m c t r q o ho)
  refine (Payload.pay_apply (xblk m c t) (wblk m c t) (βblk m c t) (ablk m c t) (lblk m c t) u p q).trans ?_
  refine Eq.trans ?_ (Cert.LoraLinear.entry_scaled (input m c) (weight m c) (bias m c) (projection m c) (loraB m c) b s o)
  exact congrArg₂ (· + ·) (congrArg₂ (· + ·) hbase hbias) hlow

/-- WHAT POINT t WRITES BACK is block t of the layer's output. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero3]
  simp only [View.ld_unit_zero (S := S1x256x4096) zero3, View.ld_unit_zero (S := S4096x1024) zero2,
    View.ld_unit_zero (S := S1x1024) zero2, View.ld_unit_zero (S := S1x256x32) zero3, View.ld_unit_zero (S := S32x1024) zero2]
  refine funext fun (j : S1x256x1024.Idx) => ?_
  obtain ⟨u, p, q, rfl⟩ : ∃ (u : Fin 1) (p : Fin 256) (q : Fin 1024), j = ix3 u p q := ⟨j 0, j 1, j 2, eq_ix3 j⟩
  exact block_entry m c t u p q _ _ _ rfl rfl rfl

/-! ## The blocks tile the array -/

/-- An index of the output array is in point t's block iff each coordinate is in the block's range on its axis. -/
theorem mem_block (t : Fin cfg0.N) (i : S8x2048x4096.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v18).slice (win0_5.rect t)).set ↔ _
  rw [View.set_slice_whole, Rect.mem_set_unit]
  exact Iff.rfl

/-- Every index (b, s', o') lies in the block (b, s' / 256, o' / 1024), which some point writes back. -/
theorem covered (i : S8x2048x4096.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 4096 := (i 2).isLt
  obtain ⟨t, ht⟩ := index_onto ⟨(i 0).val, h0⟩ ⟨(i 1).val / 256, by omega⟩ ⟨(i 2).val / 1024, by omega⟩
  have q0 : win0_5.index t (0 : Fin 3) = (i 0).val := congrFun ht 0
  have q1 : win0_5.index t (1 : Fin 3) = (i 1).val / 256 := congrFun ht 1
  have q2 : win0_5.index t (2 : Fin 3) = (i 2).val / 1024 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- THE OUTPUT ARRAY after the run is the layer's output. -/
theorem final (c : Dev nD) : (dats m 0 c).arrAt 5 cfg0.N = result m c :=
  (dats m 0 c).arrAt_eq_of_cover 5 (result m c) (fun t _ => flushed_eq m c t) covered

/-- The run, read: the output array at the layer's output, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Layer

end
-- ==== Proof.RefLayer.lean ====
/-
  The reference computes the layer.

  Its last value is (x · Wᵀ + bias) + ((x · A_b) · Bᵀ) · ½, operation by operation; read at an index (b, s, o) the two
  matrix products are sums over the contracted feature, the bias is broadcast over batches and rows, and the scale
  is the splat ½: exactly the layer's value at (b, s, o) with the reference's own projection x · A_b as the
  low-rank projection.
-/
import proofs.«403444_j63677185131155_3_alg».proof.Proof.Gen.ReferenceIdeal.Read
import proofs.«403444_j63677185131155_3_alg».proof.Proof.Spec
import Idealize.ShloMosaic.Lib.ValueIdx

noncomputable section

open scoped BigOperators

namespace Cert.ReferenceIdeal.Layer

open Cert.ReferenceIdeal Cert.ReferenceIdeal.Read Idealize.ShloMosaic Idealize.ShloMosaic.ValueIdx

/-- The reference's result is the layer function of its arguments and of its own projection stage. -/
theorem result_eq (X : FVec Ideal S8x2048x4096 .f32) (W : FVec Ideal S4096x4096 .f32) (β : FVec Ideal S4096 .f32)
    (A : FVec Ideal S5x4096x32 .f32) (Bm : FVec Ideal S4096x32 .f32) (idx : IVec S8 32) :
    val_main_v15 (F := Ideal) X W β A Bm idx
      = Cert.LoraLinear.out X W β (val_main_v11 (F := Ideal) X A idx) Bm := by
  funext i
  have el0 : ∀ k, lidx_main_v0 i k = ix3 (i 0) (i 1) k := fun k =>
    funext fun a => Fin.ext (by match a with | ⟨0, _⟩ => rfl | ⟨1, _⟩ => rfl | ⟨2, _⟩ => rfl)
  have er0 : ∀ k, ridx_main_v0 i k = ix2 (i 2) k := fun k =>
    funext fun a => Fin.ext (by match a with | ⟨0, _⟩ => rfl | ⟨1, _⟩ => rfl)
  have eb : idx_main_v1 (idx_main_v2 i) = ix1 (i 2) :=
    funext fun a => Fin.ext (by match a with | ⟨0, _⟩ => rfl)
  have el12 : ∀ r, lidx_main_v12 i r = ix3 (i 0) (i 1) r := fun r =>
    funext fun a => Fin.ext (by match a with | ⟨0, _⟩ => rfl | ⟨1, _⟩ => rfl | ⟨2, _⟩ => rfl)
  have er12 : ∀ r, ridx_main_v12 i r = ix2 (i 2) r := fun r =>
    funext fun a => Fin.ext (by match a with | ⟨0, _⟩ => rfl | ⟨1, _⟩ => rfl)
  rw [val_main_v15_apply, val_main_v3_apply, val_main_v14_apply, val_main_v0_apply, val_main_v2_apply,
    val_main_v1_apply, val_main_v12_apply, val_main_v13_apply, val_main_cst_apply]
  simp only [el0, er0, eb, el12, er12]
  rfl

end Cert.ReferenceIdeal.Layer

end
-- ==== Proof.Projection.lean ====
/-
  The two programs project the input through the same gathered matrices.

  Both compute the projection x · A_b by gathering, for each batch entry, one of the five matrices and multiplying.
  The reference gathers at the labeler index v normalised (v + 5 if v < 0); the kernel first clamps v into [0, 4]
  and then normalises. The gather itself clamps its start into [0, 4], so for v ≥ 0 both read matrix min(v, 4):
  the gathered arrays, and hence the projections, are equal.
-/
import proofs.«403444_j63677185131155_3_alg».proof.Proof.HostArrays
import proofs.«403444_j63677185131155_3_alg».proof.Proof.Gen.ReferenceIdeal.Read
import proofs.«403444_j63677185131155_3_alg».proof.Proof.Spec
import Idealize.ShloMosaic.Lib.ValueIdx
import Idealize.ShloMosaic.Lib.Pipeline.Value

noncomputable section

namespace Cert.Projection

open Idealize.ShloMosaic Idealize.ShloMosaic.TcCoe Idealize.SL.Sem Idealize.ShloMosaic.ValueIdx
open Cert.KernelIdeal Cert.KernelIdeal.Gen Cert.KernelIdeal.HostArrays

variable (m : (ℓ : Loc nD τ sig) → Buf (Elt Ideal) ℓ)

/-- A scalar word broadcast over the eight lanes reads that word on every lane. -/
theorem splat8 (b : BitVec 32) (k : S8.Idx) : (broadcastInDim S8 ![] bcast_S_S8 (constantI S_ 32 b)) k = b :=
  broadcastInDim_apply _ bcast_S_S8 _ k ix0 (fun a => a.elim0)

/-- The kernel's start index for batch entry k: the clamped labeler index, normalised. -/
theorem starts_apply (c : Dev nD) (k : S8x1.Idx) :
    starts m c k = Scalar.select
      (IntOp.cmpi .slt (IntOp.minsi 4#32 (IntOp.maxsi 0#32 (labeler m c (Cert.ReferenceIdeal.Read.idx_main_v9 k)))) 0#32)
      (IntOp.addi (IntOp.minsi 4#32 (IntOp.maxsi 0#32 (labeler m c (Cert.ReferenceIdeal.Read.idx_main_v9 k)))) 5#32)
      (IntOp.minsi 4#32 (IntOp.maxsi 0#32 (labeler m c (Cert.ReferenceIdeal.Read.idx_main_v9 k)))) := by
  unfold starts
  rw [broadcastInDim_apply _ bcast_S8_S8x1_0 _ k (Cert.ReferenceIdeal.Read.idx_main_v9 k) (fun a => match a with
    | ⟨0, _⟩ => by show (k 0).val = if (8 : Nat) = 1 then 0 else (k 0).val; rw [if_neg (by decide)])]
  show Scalar.select (IntOp.cmpi .slt (IntOp.minsi _ (IntOp.maxsi _ _)) _) (IntOp.addi (IntOp.minsi _ (IntOp.maxsi _ _)) _)
    (IntOp.minsi _ (IntOp.maxsi _ _)) = _
  rw [splat8 4#32, splat8 0#32, splat8 5#32]

/-- The reference's start index for batch entry k: the labeler index, normalised. -/
theorem ref_starts_apply (v : IVec S8 32) (k : S8x1.Idx) :
    Cert.ReferenceIdeal.Read.val_main_v9 (F := Ideal) v k = Scalar.select
      (IntOp.cmpi .slt (v (Cert.ReferenceIdeal.Read.idx_main_v9 k)) 0#32)
      (IntOp.addi (v (Cert.ReferenceIdeal.Read.idx_main_v9 k)) 5#32) (v (Cert.ReferenceIdeal.Read.idx_main_v9 k)) := by
  open Cert.ReferenceIdeal.Read in
  rw [val_main_v9_apply, val_main_v8_apply, val_main_v5_apply, val_main_v7_apply, val_main_v4_apply, val_main_c_apply,
    val_main_v6_apply, val_main_c_0_apply]

/-- With every labeler index nonnegative, the kernel's projection is the reference's projection stage of the same
    arrays. -/
theorem projection_eq (c : Dev nD) (hnn : ∀ k : S8.Idx, IntOp.cmpi .sge (labeler m c k) 0#32 = 1#1) :
    projection m c = Cert.ReferenceIdeal.Read.val_main_v11 (F := Ideal) (input m c) (loraA m c) (labeler m c) := by
  have hg : Host.gather Cert.ReferenceIdeal.gather_S5x4096x32_S8x1_S8x4096x32_12_0_n_n_0_1_1409632 (loraA m c) (starts m c)
      = Host.gather Cert.ReferenceIdeal.gather_S5x4096x32_S8x1_S8x4096x32_12_0_n_n_0_1_1409632 (loraA m c)
          (Cert.ReferenceIdeal.Read.val_main_v9 (F := Ideal) (labeler m c)) := by
    refine Cert.LoraLinear.gather_congr _ _ _ _ fun k a => ?_
    rw [starts_apply, ref_starts_apply]
    match a with
    | ⟨0, _⟩ => exact Cert.LoraLinear.lane_start_eq _ (hnn _)
    | ⟨1, _⟩ => show min _ (4096 - 4096) = min _ (4096 - 4096); simp
    | ⟨2, _⟩ => show min _ (32 - 32) = min _ (32 - 32); simp
  show Host.dotGeneral (F := Ideal) Cert.ReferenceIdeal.dot_S8x2048x4096_S8x4096x32_S8x2048x32_2_1_1_2_0_0 none (input m c)
      (Host.gather Cert.ReferenceIdeal.gather_S5x4096x32_S8x1_S8x4096x32_12_0_n_n_0_1_1409632 (loraA m c) (starts m c)) = _
  rw [hg]
  rfl

end Cert.Projection

end
-- ==== Proof.PreLabeler.lean ====
/-
  What the precondition says of the labeler indices.

  The precondition is a conjunction whose last conjunct is "every labeler index is ≥ 0" (a signed comparison of
  the eight indices with 0, reduced by "and"). So where the precondition holds, every labeler index is nonnegative
  as a signed 32-bit integer.
-/
import proofs.«403444_j63677185131155_3_alg».proof.Pre_finite_inputs
import Idealize.ShloMosaic.Lib.ReduceAll
import Idealize.ShloMosaic.Lib.ValueIdx
import Idealize.ShloMosaic.Lib.ValueLayout
import Idealize.ShloMosaic.Lib.Pipeline.Value

noncomputable section

namespace Cert.Pre_finite_inputs.Labeler

open Cert.Pre_finite_inputs Idealize.ShloMosaic Idealize.ShloMosaic.ValueIdx

variable [Cert.Pre_finite_inputs.Facts]
open Cert.Pre_finite_inputs.Facts

instance : Subsingleton S_.Idx := ⟨fun _ _ => funext fun d => d.elim0⟩

/-- Under the precondition every labeler index is nonnegative. -/
theorem nonneg {F : FTy → Type} [FloatOps F] (a0 : FVec F S8x2048x4096 .f32) (a1 : FVec F S4096x4096 .f32)
    (a2 : FVec F S4096 .f32) (a3 : FVec F S5x4096x32 .f32) (a4 : FVec F S4096x32 .f32) (a5 : IVec S8 32)
    (h : fn (F := F) a0 a1 a2 a3 a4 a5 = fun _ => 1#1) (k : S8.Idx) :
    IntOp.cmpi .sge (a5 k) 0#32 = 1#1 := by
  have h0 := congrFun h ix0
  dsimp only [fn, fn_part1] at h0
  have h1 := (IntOp.andi_eq_one.1 h0).2
  have h2 := Host.reduce_andi_all _ _ _ _ _ h1 k
  have hb : (broadcastInDim S8 ![] bcast_S_S8 (constantI S_ 32 0#32)) k = 0#32 :=
    broadcastInDim_apply _ bcast_S_S8 _ k ix0 (fun a => a.elim0)
  have h3 : IntOp.cmpi .sge (a5 k) ((broadcastInDim S8 ![] bcast_S_S8 (constantI S_ 32 0#32)) k) = 1#1 := h2
  rw [hb] at h3
  exact h3

end Cert.Pre_finite_inputs.Labeler

end
-- ==== Proof.lean ====
/-
  A linear layer with a per-batch low-rank correction: the kernel against its reference, over the extended reals.

  Both programs compute, for x : [8, 2048, 4096], W : [4096, 4096], bias : [4096], five matrices A : [5, 4096, 32],
  B : [4096, 32] and a labeler index per batch entry,

      out[b, s, o] = (Σ_k x[b, s, k] · W[o, k] + bias[o]) + (Σ_r (x · A_{idx b})[b, s, r] · B[o, r]) · ½ .

  The reference does this operation by operation. The kernel computes the projection x · A_{idx b} before its one
  grid of 4 × 8 × 8 points, folds the ½ into B beforehand, and each point writes one 256 × 1024 block of the output
  from the two block products and the bias row. Two things join the sides. (1) Scaling each B[o, r] by ½ inside the
  sum is scaling the sum by ½, because ½ is nonnegative and finite and so distributes over every sum of extended
  reals. (2) The kernel clamps the labeler index into [0, 4] before it gathers A, the reference gathers at the index
  as given (a negative one wrapped by + 5); the gather clamps its start into [0, 4] in any case, so for an index
  v ≥ 0 both read matrix min(v, 4). The precondition says every labeler index is ≥ 0 (for an index in −4 … −1 the
  two programs read different matrices and the results differ).

  The three frames are the generated ones (the reference's is its generated run with the result dropped); no rewrite
  was applied when the kernel was idealized, so there is nothing to preserve.
-/
import proofs.«403444_j63677185131155_3_alg».proof.Defs
import proofs.«403444_j63677185131155_3_alg».proof.Proof.Gen.Kernel
import proofs.«403444_j63677185131155_3_alg».proof.Proof.Gen.Kernel.Skeleton
import proofs.«403444_j63677185131155_3_alg».proof.Proof.Gen.Kernel.Launch
import proofs.«403444_j63677185131155_3_alg».proof.Proof.Gen.Kernel.Points
import proofs.«403444_j63677185131155_3_alg».proof.Proof.Gen.Kernel.Frame
import proofs.«403444_j63677185131155_3_alg».proof.Proof.Gen.KernelIdeal
import proofs.«403444_j63677185131155_3_alg».proof.Proof.Gen.KernelIdeal.Skeleton
import proofs.«403444_j63677185131155_3_alg».proof.Proof.Gen.KernelIdeal.Launch
import proofs.«403444_j63677185131155_3_alg».proof.Proof.Gen.KernelIdeal.Points
import proofs.«403444_j63677185131155_3_alg».proof.Proof.Gen.KernelIdeal.Frame
import proofs.«403444_j63677185131155_3_alg».proof.Proof.Gen.ReferenceIdeal
import proofs.«403444_j63677185131155_3_alg».proof.Proof.Gen.Pre_finite_inputs
import proofs.«403444_j63677185131155_3_alg».proof.Proof.Gen.KernelIdeal.Value
import proofs.«403444_j63677185131155_3_alg».proof.Proof.Gen.ReferenceIdeal.Run
import proofs.«403444_j63677185131155_3_alg».proof.Proof.Gen.ReferenceIdeal.Read
import proofs.«403444_j63677185131155_3_alg».proof.Proof.KernelLayer
import proofs.«403444_j63677185131155_3_alg».proof.Proof.RefLayer
import proofs.«403444_j63677185131155_3_alg».proof.Proof.Projection
import proofs.«403444_j63677185131155_3_alg».proof.Proof.PreLabeler
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, with every labeler index nonnegative, both programs end with the layer's
    output: the kernel's array is the layer of its own projection, the reference's the layer of its projection stage,
    and the two projections are equal. -/
theorem algebraic : Cert.algebraic_KernelIdeal_ReferenceIdeal := by
  intro m ρ m' ρ' hpre hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v15_eq, Cert.ReferenceIdeal.Layer.result_eq]
  have hnn : ∀ k, IntOp.cmpi .sge (Cert.KernelIdeal.HostArrays.labeler m c k) 0#32 = 1#1 :=
    Cert.Pre_finite_inputs.Labeler.nonneg _ _ _ _ _ _ (hpre c)
  have hp := Cert.Projection.projection_eq m c hnn
  show Cert.LoraLinear.out _ _ _ (Cert.ReferenceIdeal.Read.val_main_v11 (F := Ideal) _ _ _) _
    = Cert.LoraLinear.out _ _ _ (Cert.KernelIdeal.HostArrays.projection m c) _
  rw [hp]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
